-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64x768 : Shape := ⟨3, ![2048, 64, 768]⟩
abbrev S768 : Shape := ⟨1, ![768]⟩
abbrev S64x768 : Shape := ⟨2, ![64, 768]⟩
abbrev S64 : Shape := ⟨1, ![64]⟩
abbrev S_ : Shape := ⟨0, ![]⟩

class Facts : Prop where
  bcast_S_S2048x64x768 : S_.BroadcastsInDim S2048x64x768 (![] : Fin 0 → Fin S2048x64x768.rank)
  reducesTo_S2048x64x768_S_d0_1_2 : S2048x64x768.ReducesTo [0, 1, 2] S_
  h_S_ : 0 < S_.numel
  bcast_S_S768 : S_.BroadcastsInDim S768 (![] : Fin 0 → Fin S768.rank)
  reducesTo_S768_S_d0 : S768.ReducesTo [0] S_
  bcast_S_S64x768 : S_.BroadcastsInDim S64x768 (![] : Fin 0 → Fin S64x768.rank)
  reducesTo_S64x768_S_d0_1 : S64x768.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x768 1) : IVec S_ 1 :=
  let main_c_5 : IVec S_ 1 := constantI S_ 1 1#1
  let main_v17 : IVec S_ 1 := (fun x v => Host.reduce IntOp.andi x v reducesTo_S64x768_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S2048x64x768 .f32) (main_arg1 : FVec F S768 .f32) (main_arg2 : FVec F S768 .f32) (main_arg3 : FVec F S64x768 .f32) (main_arg4 : FVec F S64 .f32) : IVec S_ 1 :=
  let main_v0 : FVec F S2048x64x768 .f32 := Host.absf main_arg0
  let main_cst : FVec F S_ .f32 := constant S_ .f32 0x7F800000#32
  let main_v1 : FVec F S2048x64x768 .f32 := broadcastInDim S2048x64x768 ![] bcast_S_S2048x64x768 main_cst
  let main_v2 : IVec S2048x64x768 1 := cmpf .olt main_v0 main_v1
  let main_c : IVec S_ 1 := constantI S_ 1 1#1
  let main_v3 : IVec S_ 1 := (fun x v => Host.reduce IntOp.andi x v reducesTo_S2048x64x768_S_d0_1_2 h_S_) main_v2 main_c
  let main_v4 : FVec F S768 .f32 := Host.absf main_arg1
  let main_cst_0 : FVec F S_ .f32 := constant S_ .f32 0x7F800000#32
  let main_v5 : FVec F S768 .f32 := broadcastInDim S768 ![] bcast_S_S768 main_cst_0
  let main_v6 : IVec S768 1 := cmpf .olt main_v4 main_v5
  let main_c_1 : IVec S_ 1 := constantI S_ 1 1#1
  let main_v7 : IVec S_ 1 := (fun x v => Host.reduce IntOp.andi x v reducesTo_S768_S_d0 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S64x768 .f32 := Host.absf main_arg3
  let main_cst_4 : FVec F S_ .f32 := constant S_ .f32 0x7F800000#32
  let main_v15 : FVec F S64x768 .f32 := broadcastInDim S64x768 ![] bcast_S_S64x768 main_cst_4
  let main_v16 : IVec S64x768 1 := cmpf .olt main_v14 main_v15
  fn_part1 (F := F) main_arg4 main_v13 main_v16
-- ==== Kernel.lean ====
abbrev S2048x64x768 : Shape := ⟨3, ![2048, 64, 768]⟩
abbrev S768 : Shape := ⟨1, ![768]⟩
abbrev S64x768 : Shape := ⟨2, ![64, 768]⟩
abbrev S64 : Shape := ⟨1, ![64]⟩
abbrev S768x64 : Shape := ⟨2, ![768, 64]⟩
abbrev S2048x64x64 : Shape := ⟨3, ![2048, 64, 64]⟩
abbrev S32x64x768 : Shape := ⟨3, ![32, 64, 768]⟩
abbrev S32x64x64 : Shape := ⟨3, ![32, 64, 64]⟩
abbrev S32x64 : Shape := ⟨2, ![32, 64]⟩
abbrev S32x64x1 : Shape := ⟨3, ![32, 64, 1]⟩
abbrev S1x1x768 : Shape := ⟨3, ![1, 1, 768]⟩
abbrev S2048x768 : Shape := ⟨2, ![2048, 768]⟩
abbrev S2048x64 : Shape := ⟨2, ![2048, 64]⟩
abbrev S1x1x64 : Shape := ⟨3, ![1, 1, 64]⟩
abbrev S2048x8x8x4x4x4 : Shape := ⟨6, ![2048, 8, 8, 4, 4, 4]⟩
abbrev S2048x4x8x4x8x4 : Shape := ⟨6, ![2048, 4, 8, 4, 8, 4]⟩
abbrev S2048x4x32x32 : Shape := ⟨4, ![2048, 4, 32, 32]⟩

abbrev nBuf : Space → Nat
  | .hbm => 11
  | .vmem => 8
  | .smem => 0
  | _ => 0

abbrev bufTy : (tb : Table) → Fin (tcTables nBuf tb) → BufTy
  | .hbm, ⟨0, _⟩ => ⟨S2048x64x768, .f32⟩
  | .hbm, ⟨1, _⟩ => ⟨S768, .f32⟩
  | .hbm, ⟨2, _⟩ => ⟨S768, .f32⟩
  | .hbm, ⟨3, _⟩ => ⟨S64x768, .f32⟩
  | .hbm, ⟨4, _⟩ => ⟨S64, .f32⟩
  | .hbm, ⟨5, _⟩ => ⟨S768x64, .f32⟩
  | .hbm, ⟨6, _⟩ => ⟨S768x64, .bf16⟩
  | .hbm, ⟨7, _⟩ => ⟨S2048x64x64, .f32⟩
  | .hbm, ⟨8, _⟩ => ⟨S2048x8x8x4x4x4, .f32⟩
  | .hbm, ⟨9, _⟩ => ⟨S2048x4x8x4x8x4, .f32⟩
  | .hbm, ⟨10, _⟩ => ⟨S2048x4x32x32, .f32⟩
  | .local _ .vmem, ⟨0, _⟩ => ⟨S32x64x768, .f32⟩
  | .local _ .vmem, ⟨1, _⟩ => ⟨S32x64x768, .f32⟩
  | .local _ .vmem, ⟨2, _⟩ => ⟨S768, .f32⟩
  | .local _ .vmem, ⟨3, _⟩ => ⟨S768, .f32⟩
  | .local _ .vmem, ⟨4, _⟩ => ⟨S768x64, .bf16⟩
  | .local _ .vmem, ⟨5, _⟩ => ⟨S64, .f32⟩
  | .local _ .vmem, ⟨6, _⟩ => ⟨S32x64x64, .f32⟩
  | .local _ .vmem, ⟨7, _⟩ => ⟨S32x64x64, .f32⟩
  | _, _ => ⟨S2048x64x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x64x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S64x768_S768x64_1_0 : S64x768.Transposes [1, 0] S768x64
  bitsLt_bf16_f32 : FTy.bits .bf16 < FTy.bits .f32
  inb_S32x64x768_S32x64x768_0_0_0 : ∀ a, (![0, 0, 0] : Fin 3 → Nat) a + S32x64x768.size a ≤ S32x64x768.size a
  h_S32x64x768 : 0 < S32x64x768.numel
  reduces_S32x64x768_S32x64 : S32x64x768.Reduces [2] S32x64
  shapeCasts_S32x64_S32x64x1 : S32x64.ShapeCasts S32x64x1
  broadcasts_S32x64x1_S32x64x768 : S32x64x1.Broadcasts S32x64x768
  inb_S768_S768_0 : ∀ a, (![0] : Fin 1 → Nat) a + S768.size a ≤ S768.size a
  h_S768 : 0 < S768.numel
  shapeCasts_S768_S1x1x768 : S768.ShapeCasts S1x1x768
  broadcasts_S1x1x768_S32x64x768 : S1x1x768.Broadcasts S32x64x768
  shapeCasts_S32x64x768_S2048x768 : S32x64x768.ShapeCasts S2048x768
  inb_S768x64_S768x64_0_0 : ∀ a, (![0, 0] : Fin 2 → Nat) a + S768x64.size a ≤ S768x64.size a
  h_S768x64 : 0 < S768x64.numel
  shapeCasts_S768x64_S768x64 : S768x64.ShapeCasts S768x64
  shapeCasts_S2048x64_S32x64x64 : S2048x64.ShapeCasts S32x64x64
  inb_S64_S64_0 : ∀ a, (![0] : Fin 1 → Nat) a + S64.size a ≤ S64.size a
  h_S64 : 0 < S64.numel
  shapeCasts_S64_S1x1x64 : S64.ShapeCasts S1x1x64
  broadcasts_S1x1x64_S32x64x64 : S1x1x64.Broadcasts S32x64x64
  inb_S32x64x64_S32x64x64_0_0_0 : ∀ a, (![0, 0, 0] : Fin 3 → Nat) a + S32x64x64.size a ≤ S32x64x64.size a
  h_S32x64x64 : 0 < S32x64x64.numel
  shapeCasts_S2048x64x64_S2048x8x8x4x4x4 : S2048x64x64.ShapeCasts S2048x8x8x4x4x4
  transposes_S2048x8x8x4x4x4_S2048x4x8x4x8x4_0_3_1_4_2_5 : S2048x8x8x4x4x4.Transposes [0, 3, 1, 4, 2, 5] S2048x4x8x4x8x4
  shapeCasts_S2048x4x8x4x8x4_S2048x4x32x32 : S2048x4x8x4x8x4.ShapeCasts S2048x4x32x32
  dot_S2048x768_S768x64_S2048x64_1_0_0_1_n_n_wf : DotDims.WF S2048x768 S768x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64x768.size a ≤ S2048x64x768.size a
  hwx0_0 : ∀ i : grid0.Coords, EltTy.bits .f32 = 32 ∨ (Rect.block (s := S2048x64x768) S32x64x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768.size a ≤ S768.size a
  hwx0_1 : ∀ i : grid0.Coords, EltTy.bits .f32 = 32 ∨ (Rect.block (s := S768) S768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x64.size a ≤ S768x64.size a
  hwx0_3 : ∀ i : grid0.Coords, EltTy.bits .bf16 = 32 ∨ (Rect.block (s := S768x64) S768x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x64x64.size a ≤ S2048x64x64.size a
  hwx0_5 : ∀ i : grid0.Coords, EltTy.bits .f32 = 32 ∨ (Rect.block (s := S2048x64x64) S32x64x64.size (cc0_transform_5 i) (hinb0_5 i)).WholeWords (EltTy.packing .f32)

variable [Facts₀]

def dot_S2048x768_S768x64_S2048x64_1_0_0_1_n_n : DotDims S2048x768 S768x64 S2048x64 where
  lhsContracting := [1]
  rhsContracting := [0]
  lhsNonContracting := [0]
  rhsNonContracting := [1]
  lhsBatch := []
  rhsBatch := []
  wf := dot_S2048x768_S768x64_S2048x64_1_0_0_1_n_n_wf

abbrev win0_0 : Pipeline.Window sig grid0 :=
  Pipeline.Window.ofSpec (Memref.whole main_arg0) S32x64x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S768x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S32x64x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x64x768 : Shape := ⟨3, ![2048, 64, 768]⟩
abbrev S768 : Shape := ⟨1, ![768]⟩
abbrev S64x768 : Shape := ⟨2, ![64, 768]⟩
abbrev S64 : Shape := ⟨1, ![64]⟩
abbrev S_ : Shape := ⟨0, ![]⟩
abbrev S2048x64 : Shape := ⟨2, ![2048, 64]⟩
abbrev S2048x64x1 : Shape := ⟨3, ![2048, 64, 1]⟩
abbrev S1x1x768 : Shape := ⟨3, ![1, 1, 768]⟩
abbrev S2048x64x64 : Shape := ⟨3, ![2048, 64, 64]⟩
abbrev S1x1x64 : Shape := ⟨3, ![1, 1, 64]⟩
abbrev S2048x8x8x4x4x4 : Shape := ⟨6, ![2048, 8, 8, 4, 4, 4]⟩
abbrev S2048x4x8x4x8x4 : Shape := ⟨6, ![2048, 4, 8, 4, 8, 4]⟩
abbrev S2048x4x32x32 : Shape := ⟨4, ![2048, 4, 32, 32]⟩

abbrev nBuf : Space → Nat
  | .hbm => 50
  | .vmem => 0
  | .smem => 0
  | _ => 0

abbrev bufTy : (tb : Table) → Fin (tcTables nBuf tb) → BufTy
  | .hbm, ⟨0, _⟩ => ⟨S2048x64x768, .f32⟩
  | .hbm, ⟨1, _⟩ => ⟨S768, .f32⟩
  | .hbm, ⟨2, _⟩ => ⟨S768, .f32⟩
  | .hbm, ⟨3, _⟩ => ⟨S64x768, .f32⟩
  | .hbm, ⟨4, _⟩ => ⟨S64, .f32⟩
  | .hbm, ⟨5, _⟩ => ⟨S_, .f32⟩
  | .hbm, ⟨6, _⟩ => ⟨S2048x64, .f32⟩
  | .hbm, ⟨7, _⟩ => ⟨S2048x64x1, .f32⟩
  | .hbm, ⟨8, _⟩ => ⟨S_, .f32⟩
  | .hbm, ⟨9, _⟩ => ⟨S2048x64x1, .f32⟩
  | .hbm, ⟨10, _⟩ => ⟨S2048x64x1, .f32⟩
  | .hbm, ⟨11, _⟩ => ⟨S2048x64x768, .f32⟩
  | .hbm, ⟨12, _⟩ => ⟨S2048x64x768, .f32⟩
  | .hbm, ⟨13, _⟩ => ⟨S2048x64x768, .f32⟩
  | .hbm, ⟨14, _⟩ => ⟨S_, .f32⟩
  | .hbm, ⟨15, _⟩ => ⟨S2048x64, .f32⟩
  | .hbm, ⟨16, _⟩ => ⟨S2048x64x1, .f32⟩
  | .hbm, ⟨17, _⟩ => ⟨S_, .f32⟩
  | .hbm, ⟨18, _⟩ => ⟨S2048x64x1, .f32⟩
  | .hbm, ⟨19, _⟩ => ⟨S2048x64x1, .f32⟩
  | .hbm, ⟨20, _⟩ => ⟨S2048x64x768, .f32⟩
  | .hbm, ⟨21, _⟩ => ⟨S2048x64x768, .f32⟩
  | .hbm, ⟨22, _⟩ => ⟨S_, .f32⟩
  | .hbm, ⟨23, _⟩ => ⟨S2048x64x1, .f32⟩
  | .hbm, ⟨24, _⟩ => ⟨S2048x64x1, .f32⟩
  | .hbm, ⟨25, _⟩ => ⟨S2048x64x1, .f32⟩
  | .hbm, ⟨26, _⟩ => ⟨S2048x64x768, .f32⟩
  | .hbm, ⟨27, _⟩ => ⟨S2048x64x768, .f32⟩
  | .hbm, ⟨28, _⟩ => ⟨S1x1x768, .f32⟩
  | .hbm, ⟨29, _⟩ => ⟨S2048x64x768, .f32⟩
  | .hbm, ⟨30, _⟩ => ⟨S2048x64x768, .f32⟩
  | .hbm, ⟨31, _⟩ => ⟨S1x1x768, .f32⟩
  | .hbm, ⟨32, _⟩ => ⟨S2048x64x768, .f32⟩
  | .hbm, ⟨33, _⟩ => ⟨S2048x64x768, .f32⟩
  | .hbm, ⟨34, _⟩ => ⟨S2048x64x64, .f32⟩
  | .hbm, ⟨35, _⟩ => ⟨S1x1x64, .f32⟩
  | .hbm, ⟨36, _⟩ => ⟨S2048x64x64, .f32⟩
  | .hbm, ⟨37, _⟩ => ⟨S2048x64x64, .f32⟩
  | .hbm, ⟨38, _⟩ => ⟨S2048x64x64, .f32⟩
  | .hbm, ⟨39, _⟩ => ⟨S2048x64x64, .f32⟩
  | .hbm, ⟨40, _⟩ => ⟨S_, .f32⟩
  | .hbm, ⟨41, _⟩ => ⟨S2048x64x64, .f32⟩
  | .hbm, ⟨42, _⟩ => ⟨S2048x64x64, .f32⟩
  | .hbm, ⟨43, _⟩ => ⟨S_, .f32⟩
  | .hbm, ⟨44, _⟩ => ⟨S2048x64x64, .f32⟩
  | .hbm, ⟨45, _⟩ => ⟨S2048x64x64, .f32⟩
  | .hbm, ⟨46, _⟩ => ⟨S2048x64x64, .f32⟩
  | .hbm, ⟨47, _⟩ => ⟨S2048x8x8x4x4x4, .f32⟩
  | .hbm, ⟨48, _⟩ => ⟨S2048x4x8x4x8x4, .f32⟩
  | .hbm, ⟨49, _⟩ => ⟨S2048x4x32x32, .f32⟩
  | _, _ => ⟨S2048x64x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]

class Facts₀ : Prop where
  reducesTo_S2048x64x768_S2048x64_d2 : S2048x64x768.ReducesTo [2] S2048x64
  h_S_ : 0 < S_.numel
  bcast_S2048x64_S2048x64x1_0_1 : S2048x64.BroadcastsInDim S2048x64x1 (![0, 1] : Fin 2 → Fin S2048x64x1.rank)
  bcast_S_S2048x64x1 : S_.BroadcastsInDim S2048x64x1 (![] : Fin 0 → Fin S2048x64x1.rank)
  bcast_S2048x64x1_S2048x64x768_0_1_2 : S2048x64x1.BroadcastsInDim S2048x64x768 (![0, 1, 2] : Fin 3 → Fin S2048x64x768.rank)
  bcast_S768_S1x1x768_2 : S768.BroadcastsInDim S1x1x768 (![2] : Fin 1 → Fin S1x1x768.rank)
  bcast_S1x1x768_S2048x64x768_0_1_2 : S1x1x768.BroadcastsInDim S2048x64x768 (![0, 1, 2] : Fin 3 → Fin S2048x64x768.rank)
  bcast_S64_S1x1x64_2 : S64.BroadcastsInDim S1x1x64 (![2] : Fin 1 → Fin S1x1x64.rank)
  bcast_S1x1x64_S2048x64x64_0_1_2 : S1x1x64.BroadcastsInDim S2048x64x64 (![0, 1, 2] : Fin 3 → Fin S2048x64x64.rank)
  bcast_S_S2048x64x64 : S_.BroadcastsInDim S2048x64x64 (![] : Fin 0 → Fin S2048x64x64.rank)
  shapeCasts_S2048x64x64_S2048x8x8x4x4x4 : S2048x64x64.ShapeCasts S2048x8x8x4x4x4
  transposes_S2048x8x8x4x4x4_S2048x4x8x4x8x4_0_3_1_4_2_5 : S2048x8x8x4x4x4.Transposes [0, 3, 1, 4, 2, 5] S2048x4x8x4x8x4
  shapeCasts_S2048x4x8x4x8x4_S2048x4x32x32 : S2048x4x8x4x8x4.ShapeCasts S2048x4x32x32
  dot_S2048x64x768_S64x768_S2048x64x64_2_1_01_0_n_n_wf : DotDims.WF S2048x64x768 S64x768 S2048x64x64 [2] [1] [0, 1] [0] [] []

variable [Facts₀]

def dot_S2048x64x768_S64x768_S2048x64x64_2_1_01_0_n_n : DotDims S2048x64x768 S64x768 S2048x64x64 where
  lhsContracting := [2]
  rhsContracting := [1]
  lhsNonContracting := [0, 1]
  rhsNonContracting := [0]
  lhsBatch := []
  rhsBatch := []
  wf := dot_S2048x64x768_S64x768_S2048x64x64_2_1_01_0_n_n_wf

class Facts : Prop extends Facts₀ where

variable [Facts]
-- ==== Proof.Spec.lean ====
/-
  What both programs compute, one element at a time, on the extended reals.

  The input is a stack of 2048 matrices of 64 rows and 768 columns. Every row is normalised: its mean (the row sum
  over 768) is subtracted, the centred row is scaled by the reciprocal square root of its variance (the mean of the
  centred squares) plus a small constant, then multiplied by a weight vector and shifted by a bias vector, entry by
  entry. The normalised row is mapped to 64 numbers by a 64 by 768 matrix (a sum over the 768 columns) plus a bias,
  and each of those numbers y is replaced by y times the logistic function of y. The resulting 2048 by 64 by 64 array
  is finally re-laid as 2048 by 4 by 32 by 32: the two axes of 64 are each split in three (8, 8 and 4, 4, 4), the
  six axes are permuted, and the last four are merged in pairs.
-/
import Idealize.ShloMosaic.PureOps.Ideal
import Idealize.ShloMosaic.Lib.ValueIdx

noncomputable section

open scoped BigOperators

namespace Cert.LnSilu

open Idealize.ShloMosaic Idealize.ShloMosaic.ValueIdx

/-- The divisor 768 as both programs spell it. -/
def width : EReal := Ideal.ofBits .f32 0x44400000#32
/-- The small constant added to the variance, as both programs spell it. -/
def eps : EReal := Ideal.ofBits .f32 0x3727C5AC#32

/-! ## One row -/

section Row
variable (r g h : Fin 768 → EReal) (M : Fin 64 → Fin 768 → EReal) (d : Fin 64 → EReal)

/-- The mean of a row of 768 entries. -/
def rowMean : EReal := Ideal.div (∑ k : Fin 768, r k) width
/-- Entry `k` of the row with the row's mean subtracted. -/
def rowCentred (k : Fin 768) : EReal := r k - rowMean r
/-- The variance of the row: the mean of the centred squares. -/
def rowVariance : EReal := Ideal.div (∑ k : Fin 768, rowCentred r k * rowCentred r k) width
/-- The reciprocal square root of the variance plus the small constant. -/
def rowInvStd : EReal := Ideal.rsqrt (rowVariance r + eps)
/-- The normalised entry, weighted by `g` and shifted by `h`. -/
def rowNormed (k : Fin 768) : EReal := rowCentred r k * rowInvStd r * g k + h k
/-- The normalised row against row `o` of the matrix `M`, plus entry `o` of `d`. -/
def rowLinear (o : Fin 64) : EReal := (∑ k : Fin 768, rowNormed r g h k * M o k) + d o
/-- `y` times the logistic function of `y`. -/
def silu (y : EReal) : EReal := y * Ideal.logistic y

end Row

/-! ## The whole array -/

section
variable (x : (⟨3, ![2048, 64, 768]⟩ : Shape).Idx → EReal) (lnw lnb : (⟨1, ![768]⟩ : Shape).Idx → EReal)
  (W : (⟨2, ![64, 768]⟩ : Shape).Idx → EReal) (bias : (⟨1, ![64]⟩ : Shape).Idx → EReal)

/-- Row `(b, c)` of the input. -/
def row (b : Fin 2048) (c : Fin 64) : Fin 768 → EReal := fun k => x (ix3 b c k)
/-- The mean of row `(b, c)`. -/
def mean (b : Fin 2048) (c : Fin 64) : EReal := rowMean (row x b c)
/-- Entry `k` of row `(b, c)` with the row's mean subtracted. -/
def centred (b : Fin 2048) (c : Fin 64) (k : Fin 768) : EReal := rowCentred (row x b c) k
/-- The variance of row `(b, c)`. -/
def variance (b : Fin 2048) (c : Fin 64) : EReal := rowVariance (row x b c)
/-- The reciprocal square root of the variance plus the small constant. -/
def invStd (b : Fin 2048) (c : Fin 64) : EReal := rowInvStd (row x b c)
/-- The normalised entry, weighted and shifted. -/
def normed (b : Fin 2048) (c : Fin 64) (k : Fin 768) : EReal :=
  rowNormed (row x b c) (fun k => lnw (ix1 k)) (fun k => lnb (ix1 k)) k
/-- The normalised row against row `o` of the matrix, plus the bias. -/
def linear (b : Fin 2048) (c : Fin 64) (o : Fin 64) : EReal :=
  rowLinear (row x b c) (fun k => lnw (ix1 k)) (fun k => lnb (ix1 k)) (fun o k => W (ix2 o k)) (fun o => bias (ix1 o)) o
/-- The 2048 by 64 by 64 array before it is re-laid. -/
def activated : (⟨3, ![2048, 64, 64]⟩ : Shape).Idx → EReal :=
  fun i => silu (linear x lnw lnb W bias (i 0) (i 1) (i 2))

theorem mean_def (b : Fin 2048) (c : Fin 64) : mean x b c = Ideal.div (∑ k : Fin 768, x (ix3 b c k)) width := rfl
theorem centred_def (b : Fin 2048) (c : Fin 64) (k : Fin 768) : centred x b c k = x (ix3 b c k) - mean x b c := rfl
theorem variance_def (b : Fin 2048) (c : Fin 64) :
    variance x b c = Ideal.div (∑ k : Fin 768, centred x b c k * centred x b c k) width := rfl
theorem invStd_def (b : Fin 2048) (c : Fin 64) : invStd x b c = Ideal.rsqrt (variance x b c + eps) := rfl
theorem normed_def (b : Fin 2048) (c : Fin 64) (k : Fin 768) :
    normed x lnw lnb b c k = centred x b c k * invStd x b c * lnw (ix1 k) + lnb (ix1 k) := rfl
theorem linear_def (b : Fin 2048) (c : Fin 64) (o : Fin 64) :
    linear x lnw lnb W bias b c o = (∑ k : Fin 768, normed x lnw lnb b c k * W (ix2 o k)) + bias (ix1 o) := rfl
theorem activated_ix3 (b : Fin 2048) (c : Fin 64) (o : Fin 64) :
    activated x lnw lnb W bias (ix3 b c o) = silu (linear x lnw lnb W bias b c o) := rfl

end

/-- The re-laying of a 2048 by 64 by 64 array as 2048 by 4 by 32 by 32. -/
def relay {α : Type} (y : (⟨3, ![2048, 64, 64]⟩ : Shape).Idx → α)
    (h1 : (⟨3, ![2048, 64, 64]⟩ : Shape).ShapeCasts ⟨6, ![2048, 8, 8, 4, 4, 4]⟩)
    (h2 : (⟨6, ![2048, 8, 8, 4, 4, 4]⟩ : Shape).Transposes [0, 3, 1, 4, 2, 5] ⟨6, ![2048, 4, 8, 4, 8, 4]⟩)
    (h3 : (⟨6, ![2048, 4, 8, 4, 8, 4]⟩ : Shape).ShapeCasts ⟨4, ![2048, 4, 32, 32]⟩) :
    (⟨4, ![2048, 4, 32, 32]⟩ : Shape).Idx → α :=
  shapeCast ⟨4, ![2048, 4, 32, 32]⟩ (transpose ⟨6, ![2048, 4, 8, 4, 8, 4]⟩ [0, 3, 1, 4, 2, 5] (shapeCast ⟨6, ![2048, 8, 8, 4, 4, 4]⟩ y h1) h2) h3

/-- The word of the number one denotes one. -/
theorem ofBits_one : Ideal.ofBits .f32 0x3F800000#32 = 1 := by
  simp [Ideal.ofBits, Ideal.ieee, -EReal.coe_mul]; norm_num

/-- The logistic function spelt with the word of one, a negation, an exponential, a sum and a quotient. -/
theorem logistic_spelt (y : EReal) :
    Ideal.div (Ideal.ofBits .f32 0x3F800000#32) (Ideal.ofBits .f32 0x3F800000#32 + Ideal.exp (-y)) = Ideal.logistic y := by
  rw [ofBits_one]; rfl

end Cert.LnSilu

end
-- ==== Proof.RefSide.lean ====
/-
  The reference computes the specification.

  The reference is a straight line of host operations. Read one operation at a time at an index, its row sum over the
  last axis is the sum over the 768 entries of the row, its broadcasts read the same row (or the same entry of a
  vector) at every copy, its contraction of the normalised array with the matrix is the sum over the 768 columns of
  the products, and its logistic function is spelt as one over one plus the exponential of the negation. So entry
  `(b, c, o)` of the array the reference re-lays is the specification's entry.
-/
import proofs.«114789_j38053410243068_1_alg».proof.Proof.Gen.ReferenceIdeal.Read
import proofs.«114789_j38053410243068_1_alg».proof.Proof.Spec

noncomputable section

open scoped BigOperators

namespace Cert.LnSilu.RefSide

open Idealize.ShloMosaic Idealize.ShloMosaic.ValueIdx Cert.ReferenceIdeal Cert.ReferenceIdeal.Read

/-- Two indices of three axes with equal coordinates are equal. -/
local macro "idx3" : tactic =>
  `(tactic| (funext a; apply Fin.ext; match a with | ⟨0, _⟩ => rfl | ⟨1, _⟩ => rfl | ⟨2, _⟩ => rfl))
local macro "idx2" : tactic =>
  `(tactic| (funext a; apply Fin.ext; match a with | ⟨0, _⟩ => rfl | ⟨1, _⟩ => rfl))
local macro "idx1" : tactic =>
  `(tactic| (funext a; apply Fin.ext; match a with | ⟨0, _⟩ => rfl))

variable (x0 : (⟨3, ![2048, 64, 768]⟩ : Shape).Idx → EReal) (x1 x2 : (⟨1, ![768]⟩ : Shape).Idx → EReal)
  (x3 : (⟨2, ![64, 768]⟩ : Shape).Idx → EReal) (x4 : (⟨1, ![64]⟩ : Shape).Idx → EReal)

/-- The row's sum divided by 768 is the row's mean. -/
theorem mean_eq (b : Fin 2048) (c : Fin 64) (u : Fin 1) :
    val_main_v3 (F := Ideal) x0 (ix3 b c u) = mean x0 b c := by
  rw [val_main_v3_apply, val_main_v1_apply, val_main_v0_apply, val_main_v2_apply, val_main_cst_0_apply, val_main_cst_apply]
  simp only [Ideal.hostDivf_def, Ideal.ofBits_def, Ideal.ofBits_zero_f32, zero_add]
  rw [mean_def]; unfold width
  refine congrArg (fun s => Ideal.div s _) (Finset.sum_congr rfl fun k _ => congrArg x0 ?_)
  idx3

/-- An entry minus its row's mean, as the reference first forms it (to square it). -/
theorem centred_eq (b : Fin 2048) (c : Fin 64) (k : Fin 768) :
    val_main_v5 (F := Ideal) x0 (ix3 b c k) = centred x0 b c k := by
  rw [val_main_v5_apply, val_main_v4_apply, Ideal.subf_def]
  rw [centred_def]
  rw [← mean_eq x0 b c 0]
  exact congrArg (fun i => x0 (ix3 b c k) - val_main_v3 (F := Ideal) x0 i) (by idx3)

/-- The same difference as the reference forms it a second time (to scale it). -/
theorem centred_eq' (b : Fin 2048) (c : Fin 64) (k : Fin 768) :
    val_main_v12 (F := Ideal) x0 (ix3 b c k) = centred x0 b c k := by
  rw [val_main_v12_apply, val_main_v11_apply, Ideal.subf_def]
  rw [centred_def]
  rw [← mean_eq x0 b c 0]
  exact congrArg (fun i => x0 (ix3 b c k) - val_main_v3 (F := Ideal) x0 i) (by idx3)

/-- The sum of the centred squares divided by 768 is the row's variance. -/
theorem variance_eq (b : Fin 2048) (c : Fin 64) (u : Fin 1) :
    val_main_v10 (F := Ideal) x0 (ix3 b c u) = variance x0 b c := by
  rw [val_main_v10_apply, val_main_v8_apply, val_main_v7_apply, val_main_v9_apply, val_main_cst_2_apply, val_main_cst_1_apply]
  simp only [Ideal.hostDivf_def, Ideal.ofBits_def, Ideal.ofBits_zero_f32, zero_add]
  rw [variance_def]; unfold width
  refine congrArg (fun s => Ideal.div s _) (Finset.sum_congr rfl fun k _ => ?_)
  rw [val_main_v6_apply, Ideal.mulf_def, ← centred_eq x0 b c k]
  exact congrArg (fun i => val_main_v5 (F := Ideal) x0 i * val_main_v5 (F := Ideal) x0 i) (by idx3)

/-- The reciprocal square root of the variance plus the small constant. -/
theorem invStd_eq (b : Fin 2048) (c : Fin 64) (u : Fin 1) :
    val_main_v15 (F := Ideal) x0 (ix3 b c u) = invStd x0 b c := by
  rw [val_main_v15_apply, val_main_v14_apply, val_main_v13_apply, val_main_cst_3_apply, variance_eq]
  simp only [Ideal.hostUnary_rsqrt_def, Ideal.addf_def, Ideal.ofBits_def]
  rfl

/-- The normalised entry, weighted and shifted. -/
theorem normed_eq (b : Fin 2048) (c : Fin 64) (k : Fin 768) :
    val_main_v23 (F := Ideal) x0 x1 x2 (ix3 b c k) = normed x0 x1 x2 b c k := by
  rw [val_main_v23_apply, val_main_v20_apply, val_main_v17_apply, val_main_v16_apply, val_main_v19_apply, val_main_v18_apply,
    val_main_v22_apply, val_main_v21_apply, centred_eq']
  simp only [Ideal.addf_def, Ideal.mulf_def]
  rw [normed_def]
  rw [← invStd_eq x0 b c 0]
  have e1 : idx_main_v16 (ix3 b c k) = ix3 b c (0 : Fin 1) := by idx3
  have e2 : idx_main_v18 (idx_main_v19 (ix3 b c k)) = ix1 k := by idx1
  have e3 : idx_main_v21 (idx_main_v22 (ix3 b c k)) = ix1 k := by idx1
  rw [e1, e2, e3]

/-- The normalised row against a row of the matrix, plus the bias. -/
theorem linear_eq (b : Fin 2048) (c : Fin 64) (o : Fin 64) :
    val_main_v27 (F := Ideal) x0 x1 x2 x3 x4 (ix3 b c o) = linear x0 x1 x2 x3 x4 b c o := by
  rw [val_main_v27_apply, val_main_v24_apply, val_main_v26_apply, val_main_v25_apply, Ideal.addf_def]
  rw [linear_def]
  have e : idx_main_v25 (idx_main_v26 (ix3 b c o)) = ix1 o := by idx1
  rw [e]
  refine congrArg (· + x4 (ix1 o)) (Finset.sum_congr rfl fun k _ => ?_)
  rw [← normed_eq x0 x1 x2 b c k]
  have el : lidx_main_v24 (ix3 b c o) k = ix3 b c k := by idx3
  have er : ridx_main_v24 (ix3 b c o) k = ix2 o k := by idx2
  rw [el, er]

/-- The array the reference re-lays is the specification's. -/
theorem activated_eq : val_main_v34 (F := Ideal) x0 x1 x2 x3 x4 = activated x0 x1 x2 x3 x4 := by
  funext i
  obtain ⟨b, c, o, rfl⟩ : ∃ (b : Fin 2048) (c : Fin 64) (o : Fin 64), i = ix3 b c o := ⟨i 0, i 1, i 2, eq_ix3 i⟩
  rw [val_main_v34_apply, val_main_v33_apply, val_main_v32_apply, val_main_v31_apply, val_main_v30_apply, val_main_v29_apply,
    val_main_v28_apply, val_main_cst_5_apply, val_main_cst_4_apply, linear_eq, activated_ix3]
  simp only [Ideal.mulf_def, Ideal.hostDivf_def, Ideal.addf_def, Ideal.hostUnary_exp_def, Ideal.hostNegf_def, Ideal.negf_def,
    Ideal.ofBits_def]
  unfold silu
  rw [logistic_spelt]

end Cert.LnSilu.RefSide

end
-- ==== Proof.LibPlainDot.lean ====
/-
  A plain matrix product read at a row and a column.

  For the dimension numbers "contract the left operand's columns with the right operand's rows, no batch axis"
  (`DotDims.plain M K N`), a `tpu.matmul` into an accumulator of zeros, read on the extended reals at row `p`
  and column `q`, is `Σₜ A[p, t] · B[t, q]` over `t : Fin K`: the accumulator contributes `0`, and the sum over
  the one-axis contraction index is re-indexed by that axis's coordinate.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The left operand's index at output `(p, q)` and contraction coordinate `t` is `(p, t)`. -/
theorem lhsIdx_eq (M K N : Nat) (p : Fin M) (q : Fin N) (t : Fin K) :
    (DotDims.plain M K N).lhsIdx (ix2 p q) ((contrEquiv1 (DotDims.plain M K N) K rfl rfl).symm t) = ix2 p t := by
  have hk := contrEquiv1_symm_val (DotDims.plain M K N) K rfl rfl t
  funext a
  apply Fin.ext
  match a with
  | ⟨0, _⟩ => rfl
  | ⟨1, _⟩ => exact ((DotDims.plain M K N).lhsIdx_val_of_single rfl (ix2 p q) _).trans hk

/-- The right operand's is `(t, q)`. -/
theorem rhsIdx_eq (M K N : Nat) (p : Fin M) (q : Fin N) (t : Fin K) :
    (DotDims.plain M K N).rhsIdx (ix2 p q) ((contrEquiv1 (DotDims.plain M K N) K rfl rfl).symm t) = ix2 t q := by
  have hk := contrEquiv1_symm_val (DotDims.plain M K N) K rfl rfl t
  funext a
  apply Fin.ext
  match a with
  | ⟨0, _⟩ => exact ((DotDims.plain M K N).rhsIdx_val_of_single rfl (ix2 p q) _).trans hk
  | ⟨1, _⟩ => rfl

/-- A plain `M × K` by `K × N` product into zeros, at row `p` and column `q`, is `Σₜ A[p, t] · B[t, q]`. -/
theorem matmul_zero_apply {φ₁ φ₂ : FTy} (M K N : Nat) (prec : Option ContractPrecision)
    (A : FVec Ideal ⟨2, ![M, K]⟩ φ₁) (B : FVec Ideal ⟨2, ![K, N]⟩ φ₂) (p : Fin M) (q : Fin N) :
    FloatOps.matmul (DotDims.plain M K N) prec A B (constant ⟨2, ![M, N]⟩ .f32 0x00000000#32) (ix2 p q)
      = ∑ t : Fin K, A (ix2 p t) * B (ix2 t q) := by
  rw [Ideal.matmul_constant_zero_apply, ← Equiv.sum_comp (contrEquiv1 (DotDims.plain M K N) K rfl rfl).symm]
  refine Finset.sum_congr rfl fun t _ => ?_
  rw [lhsIdx_eq, rhsIdx_eq]

end Idealize.ShloMosaic.PlainDot

end
-- ==== Proof.KernelBlock.lean ====
/-
  One block of the kernel computes the specification's rows.

  At a grid point the kernel holds 32 of the 2048 matrices: a block of 32 by 64 by 768 entries, the two vectors of
  768, the 768 by 64 matrix and the bias of 64. Read at entry `(p, q, o)` of its 32 by 64 by 64 result: the row sums
  over the last axis are sums over the 768 entries of row `(p, q)`; the keep-dimension casts and the copies along
  the last axis read the same row's number at every column; the block viewed as 2048 rows of 768 puts row `(p, q)`
  at row `64 p + q`, the matrix product into zeros at that row and column `o` is the sum over the 768 columns of
  the products, and the product viewed again as 32 by 64 by 64 puts it back at `(p, q, o)`. So the entry is the
  specification's function of row `(p, q)` of the block.
-/
import proofs.«114789_j38053410243068_1_alg».proof.Proof.Gen.KernelIdeal.Skeleton
import proofs.«114789_j38053410243068_1_alg».proof.Proof.Spec
import proofs.«114789_j38053410243068_1_alg».proof.Proof.LibPlainDot
import Idealize.ShloMosaic.PureOps.Ideal.Laws
import Idealize.ShloMosaic.Lib.Pipeline.Value
import Idealize.ShloMosaic.Lib.ValueIdx

noncomputable section

open scoped BigOperators

namespace Cert.LnSilu.KernelBlock

open Idealize.ShloMosaic Idealize.ShloMosaic.ValueIdx

/-! ## Layout operations at the block's shapes, read at coordinates -/

section Layout
variable {α : Type}

/-- A 32 by 64 array viewed as 32 by 64 by 1 reads `(p, q)` at `(p, q, u)`. -/
theorem keepLast_apply (v : (⟨2, ![32, 64]⟩ : Shape).Idx → α)
    (h : (⟨2, ![32, 64]⟩ : Shape).ShapeCasts ⟨3, ![32, 64, 1]⟩) (p : Fin 32) (q : Fin 64) (u : Fin 1) :
    shapeCast ⟨3, ![32, 64, 1]⟩ v h (ix3 p q u) = v (ix2 p q) := by
  refine shapeCast_apply v h _ _ ?_
  rw [Shape.rowMajor_val_two, Shape.rowMajor_val_three]
  show p.val * 64 + q.val = (p.val * 64 + q.val) * 1 + u.val
  have := u.isLt
  omega

/-- A 32 by 64 by 1 array copied along the last axis reads `(p, q, 0)` at `(p, q, k)`. -/
theorem alongLast_apply {n : Nat} (v : (⟨3, ![32, 64, 1]⟩ : Shape).Idx → α)
    (h : (⟨3, ![32, 64, 1]⟩ : Shape).Broadcasts ⟨3, ![32, 64, n]⟩) (p : Fin 32) (q : Fin 64) (k : Fin n) :
    broadcastTo ⟨3, ![32, 64, n]⟩ v h (ix3 p q k) = v (ix3 p q (0 : Fin 1)) := by
  refine broadcastTo_apply v h _ _ fun a => ?_
  match a with
  | ⟨0, _⟩ => rfl
  | ⟨1, _⟩ => rfl
  | ⟨2, _⟩ => rfl

/-- A vector viewed as 1 by 1 by n reads entry `k` at `(0, 0, k)`. -/
theorem asRow_apply {n : Nat} (v : (⟨1, ![n]⟩ : Shape).Idx → α)
    (h : (⟨1, ![n]⟩ : Shape).ShapeCasts ⟨3, ![1, 1, n]⟩) (k : Fin n) :
    shapeCast ⟨3, ![1, 1, n]⟩ v h (ix3 (0 : Fin 1) (0 : Fin 1) k) = v (ix1 k) := by
  refine shapeCast_apply v h _ _ ?_
  rw [Shape.rowMajor_val_one, Shape.rowMajor_val_three]
  show k.val = ((0 : Nat) * 1 + 0) * n + k.val
  simp

/-- A 1 by 1 by n array copied over 32 by 64 rows reads `(0, 0, k)` at `(p, q, k)`. -/
theorem overRows_apply {n : Nat} (v : (⟨3, ![1, 1, n]⟩ : Shape).Idx → α)
    (h : (⟨3, ![1, 1, n]⟩ : Shape).Broadcasts ⟨3, ![32, 64, n]⟩) (p : Fin 32) (q : Fin 64) (k : Fin n) :
    broadcastTo ⟨3, ![32, 64, n]⟩ v h (ix3 p q k) = v (ix3 (0 : Fin 1) (0 : Fin 1) k) := by
  refine broadcastTo_apply v h _ _ fun a => ?_
  match a with
  | ⟨0, _⟩ => rfl
  | ⟨1, _⟩ => rfl
  | ⟨2, _⟩ =>
    show k.val = if n = 1 then 0 else k.val
    have := k.isLt
    split_ifs with hn
    · omega
    · rfl

/-- Row `(p, q)` of the block is row `64 p + q` of the 2048 by 768 view. -/
theorem rowOf (p : Fin 32) (q : Fin 64) : p.val * 64 + q.val < 2048 := by
  have := p.isLt; have := q.isLt; omega

/-- The 32 by 64 by 768 block viewed as 2048 by 768 reads `(p, q, k)` at `(64 p + q, k)`. -/
theorem mergeRows_apply (v : (⟨3, ![32, 64, 768]⟩ : Shape).Idx → α)
    (h : (⟨3, ![32, 64, 768]⟩ : Shape).ShapeCasts ⟨2, ![2048, 768]⟩) (p : Fin 32) (q : Fin 64) (k : Fin 768) :
    shapeCast ⟨2, ![2048, 768]⟩ v h (ix2 (⟨p.val * 64 + q.val, rowOf p q⟩ : Fin 2048) k) = v (ix3 p q k) := by
  refine shapeCast_apply v h _ _ ?_
  rw [Shape.rowMajor_val_two, Shape.rowMajor_val_three]
  rfl

/-- A 2048 by 64 array viewed as 32 by 64 by 64 reads `(64 p + q, o)` at `(p, q, o)`. -/
theorem splitRows_apply (v : (⟨2, ![2048, 64]⟩ : Shape).Idx → α)
    (h : (⟨2, ![2048, 64]⟩ : Shape).ShapeCasts ⟨3, ![32, 64, 64]⟩) (p : Fin 32) (q : Fin 64) (o : Fin 64) :
    shapeCast ⟨3, ![32, 64, 64]⟩ v h (ix3 p q o) = v (ix2 (⟨p.val * 64 + q.val, rowOf p q⟩ : Fin 2048) o) := by
  refine shapeCast_apply v h _ _ ?_
  rw [Shape.rowMajor_val_two, Shape.rowMajor_val_three]
  rfl

end Layout

/-! ## The arithmetic operations at an index -/

section Arithmetic
variable {s : Shape} {φ : FTy}

theorem rsqrt_apply (a : FVec Ideal s φ) (i : s.Idx) : rsqrt a i = Ideal.rsqrt (a i) := rfl
theorem logistic_apply (a : FVec Ideal s φ) (i : s.Idx) : logistic a i = Ideal.logistic (a i) := rfl

end Arithmetic

/-- The sum over the last axis of a 32 by 64 by 768 block, at `(p, q)`, is the sum of row `(p, q)`. -/
theorem rowSum_apply (v : FVec Ideal ⟨3, ![32, 64, 768]⟩ .f32)
    (h : (⟨3, ![32, 64, 768]⟩ : Shape).Reduces [2] ⟨2, ![32, 64]⟩) (p : Fin 32) (q : Fin 64) :
    FloatOps.reduceAdd [2] h v (ix2 p q) = ∑ k : Fin 768, v (ix3 p q k) :=
  (Ideal.reduceAdd_single h v (ix2 p q)).trans
    (Finset.sum_congr rfl fun k _ => congrArg v (funext fun a => Fin.ext (by
      match a with
      | ⟨0, _⟩ => rfl
      | ⟨1, _⟩ => rfl
      | ⟨2, _⟩ => rfl)))

/-- The kernel's matrix product into zeros, at row `r` and column `o`, is the sum over the 768 columns. -/
theorem product_apply (A : FVec Ideal ⟨2, ![2048, 768]⟩ .bf16) (B : FVec Ideal ⟨2, ![768, 64]⟩ .bf16) (r : Fin 2048) (o : Fin 64) :
    matmul Cert.KernelIdeal.dot_S2048x768_S768x64_S2048x64_1_0_0_1_n_n none A B (constant ⟨2, ![2048, 64]⟩ .f32 0x00000000#32) (ix2 r o)
      = ∑ t : Fin 768, A (ix2 r t) * B (ix2 t o) :=
  PlainDot.matmul_zero_apply 2048 768 64 none A B r o

/-! ## The block's result at an entry -/

open Cert.KernelIdeal Cert.KernelIdeal.Gen

/-- Entry `(p, q, o)` of what the body stores is the specification's function of row `(p, q)` of the block, the two
    vectors, the matrix read column by column, and the bias. -/
theorem block_apply (v0 : FVec Ideal S32x64x768 .f32) (v17 v21 : FVec Ideal S768 .f32) (v27 : FVec Ideal S768x64 .bf16)
    (v31 : FVec Ideal S64 .f32) (p : Fin 32) (q : Fin 64) (o : Fin 64) :
    k0_pay1 (F := Ideal) v0 v17 v21 v27 v31 (ix3 p q o)
      = silu (rowLinear (fun k => v0 (ix3 p q k)) (fun k => v17 (ix1 k)) (fun k => v21 (ix1 k))
          (fun o k => v27 (ix2 k o)) (fun o => v31 (ix1 o)) o) := by
  unfold k0_pay1 multiReduction
  repeat (first
    | rw [rowSum_apply]
    | simp only [mulf_apply, addf_apply, subf_apply, divf_apply, logistic_apply, rsqrt_apply, truncf_apply, broadcast_apply,
    splitRows_apply, product_apply, mergeRows_apply, overRows_apply, asRow_apply, alongLast_apply, keepLast_apply, shapeCast_self])
  rfl

end Cert.LnSilu.KernelBlock

end
-- ==== Proof.KernelArray.lean ====
/-
  The kernel's result array, and the kernel's run.

  The grid has 64 points; point `t` holds matrices `32 t … 32 t + 31` of the input and writes rows
  `32 t … 32 t + 31` of the 2048 by 64 by 64 result; the two vectors, the matrix and the bias are held whole at every
  point. The matrix the kernel is given is the argument's transpose (made by the lines before the call), so its entry
  `(k, o)` is the argument's entry `(o, k)`. Hence what point `t` writes back is its block of the specification's
  array; the 64 blocks tile the array, so after the call the array is the specification's; and the three lines after
  the call re-lay it.
-/
import proofs.«114789_j38053410243068_1_alg».proof.Proof.Gen.KernelIdeal.Frame
import proofs.«114789_j38053410243068_1_alg».proof.Proof.KernelBlock
import Idealize.ShloMosaic.Lib.Pipeline.Value
import Idealize.ShloMosaic.Lib.ValueLayout
import Idealize.ShloMosaic.Lib.StableHlo.Run
import Idealize.ShloMosaic.Lib.Tactic

noncomputable section

open scoped BigOperators

open Idealize.ShloMosaic Idealize.ShloMosaic.TcCoe Idealize.SL.Sem
open Idealize.ShloMosaic.Pipeline (Dat)

namespace Cert.LnSilu.KernelArray

open Idealize.ShloMosaic.ValueIdx Cert.KernelIdeal Cert.KernelIdeal.Gen

variable (m : (ℓ : Loc nD τ sig) → Buf (Elt Ideal) ℓ) (ρ : Dev nD → PrngReg)

/-! ## The arguments and the target -/

/-- The input stack. -/
abbrev argX (c : Dev nD) : S2048x64x768.Idx → EReal := m ((c : Thread nD τ).loc main_arg0)
/-- The weight vector. -/
abbrev argG (c : Dev nD) : S768.Idx → EReal := m ((c : Thread nD τ).loc main_arg1)
/-- The shift vector. -/
abbrev argH (c : Dev nD) : S768.Idx → EReal := m ((c : Thread nD τ).loc main_arg2)
/-- The matrix, 64 rows of 768. -/
abbrev argW (c : Dev nD) : S64x768.Idx → EReal := m ((c : Thread nD τ).loc main_arg3)
/-- The bias. -/
abbrev argB (c : Dev nD) : S64.Idx → EReal := m ((c : Thread nD τ).loc main_arg4)
/-- The specification's array of the arguments. -/
abbrev target (c : Dev nD) : S2048x64x64.Idx → EReal :=
  activated (argX m c) (argG m c) (argH m c) (argW m c) (argB m c)

/-! ## Where the windows' blocks lie -/

/-- The block indices, decided over the grid: the input stack and the result move with the point along the first
    axis; everything else stays at block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 1) = 0 ∧ win0_2.index t (0 : Fin 1) = 0
    ∧ win0_3.index t (0 : Fin 2) = 0 ∧ win0_3.index t (1 : Fin 2) = 0
    ∧ win0_4.index t (0 : Fin 1) = 0
    ∧ win0_5.index t (0 : Fin 3) = t.val ∧ win0_5.index t (1 : Fin 3) = 0 ∧ win0_5.index t (2 : Fin 3) = 0 :=
  (by decide +kernel : ∀ t : Fin grid0.N, _)

/-- Matrix `p` of point `t`'s block is matrix `32 t + p` of the stack. -/
theorem matrixOf (t : Fin cfg0.N) (p : Fin 32) : t.val * 32 + p.val < 2048 := by
  have hN : grid0.N = 64 := N_0
  have ht : t.val < grid0.N := t.isLt
  have := p.isLt
  omega

/-- The input window's block at point `t`. -/
theorem xblk_apply (c : Dev nD) (t : Fin cfg0.N) (p : Fin 32) (q : Fin 64) (k : Fin 768) :
    (iblk m c 0 t : S32x64x768.Idx → EReal) (ix3 p q k)
      = argX m c (ix3 (⟨t.val * 32 + p.val, matrixOf t p⟩ : Fin 2048) q k) := by
  obtain ⟨e0, e1, e2, -⟩ := idx_facts t
  show V m c main_arg0 (((cfg0.win 0).blk t).view.emb (ix3 p q k)) = _
  rw [V_main_arg0]
  refine congrArg (m ((c : Thread nD τ).loc main_arg0)) (funext fun a => Fin.ext ?_)
  match a with
  | ⟨0, _⟩ => show win0_0.index t (0 : Fin 3) * 32 + 1 * p.val = t.val * 32 + p.val; rw [e0]; omega
  | ⟨1, _⟩ => show win0_0.index t (1 : Fin 3) * 64 + 1 * q.val = q.val; rw [e1]; omega
  | ⟨2, _⟩ => show win0_0.index t (2 : Fin 3) * 768 + 1 * k.val = k.val; rw [e2]; omega

/-- The weight vector's window holds the vector at every point. -/
theorem gblk_apply (c : Dev nD) (t : Fin cfg0.N) (k : Fin 768) :
    (iblk m c 1 t : S768.Idx → EReal) (ix1 k) = argG m c (ix1 k) := by
  obtain ⟨-, -, -, e, -⟩ := idx_facts t
  show V m c main_arg1 (((cfg0.win 1).blk t).view.emb (ix1 k)) = _
  rw [V_main_arg1]
  refine congrArg (m ((c : Thread nD τ).loc main_arg1)) (funext fun a => Fin.ext ?_)
  match a with
  | ⟨0, _⟩ => show win0_1.index t (0 : Fin 1) * 768 + 1 * k.val = k.val; rw [e]; omega

/-- The shift vector's window holds the vector at every point. -/
theorem hblk_apply (c : Dev nD) (t : Fin cfg0.N) (k : Fin 768) :
    (iblk m c 2 t : S768.Idx → EReal) (ix1 k) = argH m c (ix1 k) := by
  obtain ⟨-, -, -, -, e, -⟩ := idx_facts t
  show V m c main_arg2 (((cfg0.win 2).blk t).view.emb (ix1 k)) = _
  rw [V_main_arg2]
  refine congrArg (m ((c : Thread nD τ).loc main_arg2)) (funext fun a => Fin.ext ?_)
  match a with
  | ⟨0, _⟩ => show win0_2.index t (0 : Fin 1) * 768 + 1 * k.val = k.val; rw [e]; omega

/-- The bias's window holds the bias at every point. -/
theorem bblk_apply (c : Dev nD) (t : Fin cfg0.N) (o : Fin 64) :
    (iblk m c 4 t : S64.Idx → EReal) (ix1 o) = argB m c (ix1 o) := by
  obtain ⟨-, -, -, -, -, -, -, e, -⟩ := idx_facts t
  show V m c main_arg4 (((cfg0.win 4).blk t).view.emb (ix1 o)) = _
  rw [V_main_arg4]
  refine congrArg (m ((c : Thread nD τ).loc main_arg4)) (funext fun a => Fin.ext ?_)
  match a with
  | ⟨0, _⟩ => show win0_4.index t (0 : Fin 1) * 64 + 1 * o.val = o.val; rw [e]; omega

/-- The matrix the call is given: the lines before it transpose the argument (and change its format, which on the
    extended reals changes nothing). -/
theorem given_matrix (c : Dev nD) (k : Fin 768) (o : Fin 64) :
    (V m c main_v1 : S768x64.Idx → EReal) (ix2 k o) = argW m c (ix2 o k) := by
  have e : (V m c main_v1 : S768x64.Idx → EReal)
      = truncf (F := Ideal) .bf16 (transpose S768x64 [1, 0] (argW m c) transposes_S64x768_S768x64_1_0) bitsLt_bf16_f32 := by
    show StableHlo.after hostOps0 (fun b => m (c, b)) (Proc.devRef .tc main_v1) = _
    after_results
  rw [e, truncf_apply]
  exact transpose_apply [1, 0] (argW m c) transposes_S64x768_S768x64_1_0 (ix2 k o) (ix2 o k) (fun b => match b with
    | ⟨0, _⟩ => rfl
    | ⟨1, _⟩ => rfl)

/-- The matrix's window holds the given matrix at every point. -/
theorem wblk_apply (c : Dev nD) (t : Fin cfg0.N) (k : Fin 768) (o : Fin 64) :
    (iblk m c 3 t : S768x64.Idx → EReal) (ix2 k o) = argW m c (ix2 o k) := by
  obtain ⟨-, -, -, -, -, e0, e1, -⟩ := idx_facts t
  rw [← given_matrix m c k o]
  show V m c main_v1 (((cfg0.win 3).blk t).view.emb (ix2 k o)) = _
  refine congrArg (V m c main_v1) (funext fun a => Fin.ext ?_)
  match a with
  | ⟨0, _⟩ => show win0_3.index t (0 : Fin 2) * 768 + 1 * k.val = k.val; rw [e0]; omega
  | ⟨1, _⟩ => show win0_3.index t (1 : Fin 2) * 64 + 1 * o.val = o.val; rw [e1]; omega

/-! ## What a point writes back -/

/-- With blocks that read the arguments as above, the body's result at `(p, q, o)` is the specification's entry
    `(32 t + p, q, o)`. Stated over variables for the blocks. -/
theorem point_apply (X : S2048x64x768.Idx → EReal) (G H : S768.Idx → EReal) (Wm : S64x768.Idx → EReal) (B : S64.Idx → EReal)
    (x0 : FVec Ideal S32x64x768 .f32) (x1 x2 : FVec Ideal S768 .f32) (x3 : FVec Ideal S768x64 .bf16) (x4 : FVec Ideal S64 .f32)
    (b : Fin 2048) (p : Fin 32) (q : Fin 64) (o : Fin 64)
    (h0 : ∀ k : Fin 768, x0 (ix3 p q k) = X (ix3 b q k)) (h1 : ∀ k : Fin 768, x1 (ix1 k) = G (ix1 k))
    (h2 : ∀ k : Fin 768, x2 (ix1 k) = H (ix1 k)) (h3 : ∀ (k : Fin 768) (o : Fin 64), x3 (ix2 k o) = Wm (ix2 o k))
    (h4 : ∀ o : Fin 64, x4 (ix1 o) = B (ix1 o)) :
    k0_pay1 (F := Ideal) x0 x1 x2 x3 x4 (ix3 p q o) = activated X G H Wm B (ix3 b q o) := by
  rw [KernelBlock.block_apply, activated_ix3]
  unfold linear row
  simp only [h0, h1, h2, h3, h4]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- What point `t` writes back is its block of the specification's array. -/
theorem flushed_eq (c : Dev nD) (t : Fin cfg0.N) :
    (dats m 0 c).flushed 5 t = ((cfg0.win 5).blk t).view.read (Elt Ideal) (target m c) := by
  show (cfg0.win 5).cut (grid0.coords t) ((dats m 0 c).after 5 t) = _
  rw [after0_5]
  unfold out0_5
  rw [View.canon_unit_zero hz3]
  simp only [View.ld_unit_zero (S := S32x64x768) hz3, View.ld_unit_zero (S := S768) hz1,
    View.ld_unit_zero (S := S768x64) hz2, View.ld_unit_zero (S := S64) hz1]
  obtain ⟨-, -, -, -, -, -, -, -, e0, e1, e2⟩ := idx_facts t
  show (k0_pay1 (F := Ideal) (iblk m c 0 t) (iblk m c 1 t) (iblk m c 2 t) (iblk m c 3 t) (iblk m c 4 t) : S32x64x64.Idx → EReal)
    = fun j : S32x64x64.Idx => target m c (((cfg0.win 5).blk t).view.emb j)
  funext j
  obtain ⟨p, q, o, rfl⟩ : ∃ (p : Fin 32) (q : Fin 64) (o : Fin 64), j = ix3 p q o := ⟨j 0, j 1, j 2, eq_ix3 j⟩
  have hemb : ((cfg0.win 5).blk t).view.emb (ix3 p q o) = ix3 (⟨t.val * 32 + p.val, matrixOf t p⟩ : Fin 2048) q o := by
    funext a
    apply Fin.ext
    match a with
    | ⟨0, _⟩ => show win0_5.index t (0 : Fin 3) * 32 + 1 * p.val = t.val * 32 + p.val; rw [e0]; omega
    | ⟨1, _⟩ => show win0_5.index t (1 : Fin 3) * 64 + 1 * q.val = q.val; rw [e1]; omega
    | ⟨2, _⟩ => show win0_5.index t (2 : Fin 3) * 64 + 1 * o.val = o.val; rw [e2]; omega
  show _ = target m c (((cfg0.win 5).blk t).view.emb (ix3 p q o))
  rw [hemb]
  exact point_apply (argX m c) (argG m c) (argH m c) (argW m c) (argB m c)
    (iblk m c 0 t) (iblk m c 1 t) (iblk m c 2 t) (iblk m c 3 t) (iblk m c 4 t) ⟨t.val * 32 + p.val, matrixOf t p⟩ p q o
    (fun k => xblk_apply m c t p q k) (fun k => gblk_apply m c t k) (fun k => hblk_apply m c t k)
    (fun k o => wblk_apply m c t k o) (fun o => bblk_apply m c t o)

/-! ## The array after the call -/

/-- An index of the array is in point `t`'s block iff each coordinate is in the block's range on its axis. -/
theorem mem_blk (t : Fin cfg0.N) (i : S2048x64x64.Idx) :
    i ∈ ((cfg0.win 5).blk t).view.set ↔ ∀ a : Fin 3, win0_5.index t a * S32x64x64.size a ≤ (i a).val ∧ (i a).val < win0_5.index t a * S32x64x64.size a + S32x64x64.size a := by
  show i ∈ ((View.whole main_v2).slice (win0_5.rect t)).set ↔ _
  rw [View.set_slice_whole, Rect.mem_set_unit]
  exact Iff.rfl

/-- Every entry of the array is in the block of the point that holds its matrix. -/
theorem covered (i : S2048x64x64.Idx) :
    ∃ t : Fin cfg0.N, (cfg0.win 5).flush t = true ∧ i ∈ ((cfg0.win 5).blk t).view.set := by
  have hN : grid0.N = 64 := N_0
  have h0 : (i 0).val < 2048 := (i 0).isLt
  have h1 : (i 1).val < 64 := (i 1).isLt
  have h2 : (i 2).val < 64 := (i 2).isLt
  let t : Fin cfg0.N := ⟨(i 0).val / 32, by show (i 0).val / 32 < grid0.N; omega⟩
  obtain ⟨-, -, -, -, -, -, -, -, e0, e1, e2⟩ := idx_facts t
  refine ⟨t, flush0_5 t, ?_⟩
  rw [mem_blk]
  intro a
  have ht : t.val = (i 0).val / 32 := rfl
  match a with
  | ⟨0, _⟩ => show win0_5.index t (0 : Fin 3) * 32 ≤ (i 0).val ∧ (i 0).val < win0_5.index t (0 : Fin 3) * 32 + 32; rw [e0]; omega
  | ⟨1, _⟩ => show win0_5.index t (1 : Fin 3) * 64 ≤ (i 1).val ∧ (i 1).val < win0_5.index t (1 : Fin 3) * 64 + 64; rw [e1]; omega
  | ⟨2, _⟩ => show win0_5.index t (2 : Fin 3) * 64 ≤ (i 2).val ∧ (i 2).val < win0_5.index t (2 : Fin 3) * 64 + 64; rw [e2]; omega

/-- After the call the array is the specification's. -/
theorem final (c : Dev nD) : (dats m 0 c).arrAt 5 cfg0.N = target m c :=
  (dats m 0 c).arrAt_eq_of_cover 5 (target m c) (fun t _ => flushed_eq m c t) covered

/-! ## The lines after the call, and the run -/

/-- What the program returns: the array re-laid. -/
theorem result_eq (c : Dev nD) :
    Pipeline.afterTail₀ cfgs (dats m) 0 (V0 m) [hostOps1] c main_v5
      = relay (target m c) shapeCasts_S2048x64x64_S2048x8x8x4x4x4 transposes_S2048x8x8x4x4x4_S2048x4x8x4x8x4_0_3_1_4_2_5
          shapeCasts_S2048x4x8x4x8x4_S2048x4x32x32 := by
  unfold Pipeline.afterTail₀
  show StableHlo.after hostOps1 _ (Proc.devRef .tc main_v5) = _
  after_results
  rw [show Pipeline.withArrays spec0 c (V0 m c) (fun w => (dats m 0 c).arrAt w cfg0.N) (Proc.devRef .tc main_v2) = target m c from
    (Pipeline.withArrays_arr spec0 launch0.win.arr_inj c _ _ 5).trans (final m c)]
  rfl

/-- Every execution of the kernel's program ends with the result at the specification's array re-laid, and the
    arguments as they were. -/
theorem run : θ_run defs (onTc (τ := τ) (main (F := Ideal))) ⟨m, fun _ => 0, ρ⟩ fun r => ∀ c : Dev nD,
      r.2.mem ((c.tc : Thread nD τ).loc main_v5)
        = relay (target m c) shapeCasts_S2048x64x64_S2048x8x8x4x4x4 transposes_S2048x8x8x4x4x4_S2048x4x8x4x8x4_0_3_1_4_2_5
            shapeCasts_S2048x4x8x4x8x4_S2048x4x32x32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v5 (Pipeline.mem_restRefs_of main_v5 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c)))⟩)
    (run_main m ρ)

end Cert.LnSilu.KernelArray

end
-- ==== Proof.lean ====
/-
  The kernel and the reference compute one function on the extended reals.

  Both normalise every row of 768 entries of a stack of 2048 matrices of 64 rows (mean subtracted, scaled by the
  reciprocal square root of the variance plus a small constant, weighted and shifted entry by entry), map the row to
  64 numbers by a matrix and a bias, replace each number y by y times the logistic function of y, and re-lay the
  2048 by 64 by 64 result as 2048 by 4 by 32 by 32. The kernel does it 32 matrices at a time with a matrix product
  against the transposed matrix and the logistic function as one operation; the reference does it on the whole stack
  with a contraction against the matrix as given and the logistic function spelt out. Neither the tiling, nor the
  transposition, nor the spelling changes the value at any entry, and the re-laying is the same three operations on
  both sides. The three frames are the generated ones (the reference's is its generated run with the result dropped),
  and the idealisation rewrote nothing.
-/
import proofs.«114789_j38053410243068_1_alg».proof.Defs
import proofs.«114789_j38053410243068_1_alg».proof.Proof.Gen.Kernel
import proofs.«114789_j38053410243068_1_alg».proof.Proof.Gen.Kernel.Skeleton
import proofs.«114789_j38053410243068_1_alg».proof.Proof.Gen.Kernel.Launch
import proofs.«114789_j38053410243068_1_alg».proof.Proof.Gen.Kernel.Points
import proofs.«114789_j38053410243068_1_alg».proof.Proof.Gen.Kernel.Frame
import proofs.«114789_j38053410243068_1_alg».proof.Proof.Gen.KernelIdeal
import proofs.«114789_j38053410243068_1_alg».proof.Proof.Gen.KernelIdeal.Skeleton
import proofs.«114789_j38053410243068_1_alg».proof.Proof.Gen.KernelIdeal.Launch
import proofs.«114789_j38053410243068_1_alg».proof.Proof.Gen.KernelIdeal.Points
import proofs.«114789_j38053410243068_1_alg».proof.Proof.Gen.KernelIdeal.Frame
import proofs.«114789_j38053410243068_1_alg».proof.Proof.Gen.ReferenceIdeal
import proofs.«114789_j38053410243068_1_alg».proof.Proof.Gen.Pre_finite_inputs
import proofs.«114789_j38053410243068_1_alg».proof.Proof.Gen.ReferenceIdeal.Run
import proofs.«114789_j38053410243068_1_alg».proof.Proof.Gen.ReferenceIdeal.Read
import proofs.«114789_j38053410243068_1_alg».proof.Proof.RefSide
import proofs.«114789_j38053410243068_1_alg».proof.Proof.KernelArray
import Idealize.ShloMosaic.Adequacy
import Idealize.ShloMosaic.Init

noncomputable section

namespace Cert.Proof

open Idealize.ShloMosaic Idealize.SL.Sem Cert.Kernel

/-- The word-level kernel runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the specification's array of the arguments,
    re-laid. -/
theorem algebraic : Cert.algebraic_KernelIdeal_ReferenceIdeal := by
  intro m ρ m' ρ' _ hagree
  refine ⟨_, Cert.LnSilu.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, (hagree c).1, (hagree c).2.1, (hagree c).2.2.1, (hagree c).2.2.2.1, (hagree c).2.2.2.2]
  unfold Cert.ReferenceIdeal.Read.val_main_v37 Cert.ReferenceIdeal.Read.val_main_v36 Cert.ReferenceIdeal.Read.val_main_v35
  rw [Cert.LnSilu.RefSide.activated_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
